-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 25
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S1x8192, .f32⟩
  | .hbm, ⟨22, _⟩ => ⟨S8192x512, .bf16⟩
  | .hbm, ⟨23, _⟩ => ⟨S8192x512, .bf16⟩
  | .hbm, ⟨24, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v16) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.GramSpec.lean ====
/-
  The Gaussian (squared-exponential) kernel matrix with one length scale per feature, from scaled inputs.

  For points xᵢ, yⱼ ∈ ℝ⁵¹² and per-feature scales h_d > 0 put u = x / √h and v = y / √h (feature by feature). Then
      Σ_d (xᵢ_d − yⱼ_d)² / h_d  =  ‖uᵢ‖² + ‖vⱼ‖² − 2 ⟨uᵢ, vⱼ⟩ ,
  and the kernel matrix is  K(i, j) = exp(−½ · max(‖uᵢ‖² + ‖vⱼ‖² − 2 ⟨uᵢ, vⱼ⟩, 0)); the clamp at 0 only guards the
  rounding of a machine, on exact numbers it is the identity.

  Both programs of this certificate compute K by exactly this expansion, grouped the same way:
  (‖uᵢ‖² + ‖vⱼ‖²) first, then minus 2 times the inner product, then the clamp, the factor −½ and the exponential.
  They differ only in WHERE the inner products are taken (tile by tile, or in one product of the whole matrices) and in
  how the two vectors of squared norms are laid out before they are added. So `gram` below is stated over the four
  ingredients — the scaled inputs `U`, `V` and their squared norms `nU`, `nV` — as given functions, and each program
  is shown to end at `gram` of the SAME four; nothing is regrouped or distributed, so no finiteness is needed.
  The three constants are kept as the binary words both programs print: −½ (0xBF000000), 2 (0x40000000), 0.
-/
import Idealize.ShloMosaic.PureOps.Ideal.Laws
import Idealize.ShloMosaic.Lib.ValueIdx

noncomputable section

namespace ArdGram

open Idealize.ShloMosaic Idealize.ShloMosaic.ValueIdx
open scoped BigOperators

/-- Entry (r, s) of the kernel matrix from the scaled inputs `U` (rows u_r), `V` (rows v_s) and their squared norms:
    `exp(−½ · max((nU r + nV s) − 2 · Σ_k U(r,k) · V(s,k), 0))` on the extended reals. -/
def gramAt (U V : (⟨2, ![8192, 512]⟩ : Shape).Idx → EReal) (nU nV : (⟨1, ![8192]⟩ : Shape).Idx → EReal)
    (r s : Fin 8192) : EReal :=
  Ideal.exp (Ideal.ofBits .f32 0xBF000000#32 *
    max ((nU (ix1 r) + nV (ix1 s)) - Ideal.ofBits .f32 0x40000000#32 * ∑ k : Fin 512, U (ix2 r k) * V (ix2 s k))
        (Ideal.ofBits .f32 0x00000000#32))

/-- The kernel matrix as an array: entry `i` is `gramAt` at `i`'s two coordinates. -/
def gram (U V : (⟨2, ![8192, 512]⟩ : Shape).Idx → EReal) (nU nV : (⟨1, ![8192]⟩ : Shape).Idx → EReal) :
    (⟨2, ![8192, 8192]⟩ : Shape).Idx → EReal := fun i =>
  gramAt U V nU nV ⟨(i 0).val, (i 0).isLt⟩ ⟨(i 1).val, (i 1).isLt⟩

theorem gram_apply (U V : (⟨2, ![8192, 512]⟩ : Shape).Idx → EReal) (nU nV : (⟨1, ![8192]⟩ : Shape).Idx → EReal)
    (r s : Fin 8192) : gram U V nU nV (ix2 r s) = gramAt U V nU nV r s := rfl

end ArdGram

end
-- ==== Proof.TileGram.lean ====
/-
  One 1024 × 1024 tile of the kernel matrix, as the kernel body computes it from its four loaded blocks.

  The body is handed a block `a` of 1024 rows of the scaled x (1024 × 512), a block `b` of 1024 rows of the scaled y
  (1024 × 512), the squared norms of those x-rows as a column `p` (1024 × 1) and of those y-rows as a row `q` (1 × 1024).
  It forms the product of `a` with the TRANSPOSE of `b` (both operands contracted along their second axis, the 512
  features) into a zero accumulator, broadcasts the column along the rows and the row along the columns, and stores
      exp(−½ · max((p(r) + q(s)) − 2 · Σ_k a(r,k) · b(s,k), 0))
  at entry (r, s). This file reads that stored value at an entry. The one operation that is not entry-by-entry is the
  matrix product: at the ideal values it is the plain sum over the contracted coordinate (no accumulator term, since the
  accumulator is the zero splat), and its operand indices at output entry (r, s) and contraction coordinate k are
  (r, k) on the left and (s, k) on the right — both operands are indexed [row, feature].
-/
import proofs.«129757_j82712480187158_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.TileGram

open Cert.KernelIdeal Cert.KernelIdeal.Gen Idealize.ShloMosaic Idealize.ShloMosaic.ValueIdx
open scoped BigOperators

/-! ## The product's operand indices, axis by axis -/

/-- Left operand, row axis: the output entry's row. -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- Left operand, feature axis: the contraction coordinate. -/
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- Right operand, row axis: the output entry's COLUMN (the right operand enters transposed). -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Right operand, feature axis: the contraction coordinate. -/
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- THE TILE'S PRODUCT at an entry: `a · bᵀ` from the zero accumulator is `Σ_k a(r,k) · b(s,k)`. -/
theorem tile_dot_apply (a b : FVec Ideal S1024x512 .bf16) (r s : Fin 1024) :
    matmul (F := Ideal) (φ₁ := .bf16) (φ₂ := .bf16) dot_S1024x512_S1024x512_S1024x1024_1_1_0_0_n_n none a b (constant S1024x1024 .f32 0x00000000#32) (ix2 r s)
      = ∑ k : Fin 512, a (ix2 r k) * b (ix2 s k) := by
  refine (Ideal.matmul_constant_zero_apply dot_S1024x512_S1024x512_S1024x1024_1_1_0_0_n_n none a b (ix2 r s)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r s) ((contrEquiv1 dot_S1024x512_S1024x512_S1024x1024_1_1_0_0_n_n 512 rfl rfl).symm k) = ix2 r k := funext fun ax => Fin.ext (by
    match ax with
    | ⟨0, _⟩ => exact lhs_axis0 _ _
    | ⟨1, _⟩ => exact (lhs_axis1 _ _).trans hk)
  have er : dot_S1024x512_S1024x512_S1024x1024_1_1_0_0_n_n.rhsIdx (ix2 r s) ((contrEquiv1 dot_S1024x512_S1024x512_S1024x1024_1_1_0_0_n_n 512 rfl rfl).symm k) = ix2 s k := funext fun ax => Fin.ext (by
    match ax with
    | ⟨0, _⟩ => exact rhs_axis0 _ _
    | ⟨1, _⟩ => exact (rhs_axis1 _ _).trans hk)
  rw [el, er]

/-! ## The stored value at an entry -/

/-- The column of x-norms broadcast along the rows, at (r, s), is its entry r. -/
theorem col_bcast_apply (p : FVec Ideal S1024x1 .f32) (r s : Fin 1024) :
    broadcastTo S1024x1024 p broadcasts_S1024x1_S1024x1024 (ix2 r s) = p (ix2 r 0) :=
  broadcastTo_apply p broadcasts_S1024x1_S1024x1024 (ix2 r s) (ix2 r 0) (fun ax => by
    match ax with
    | ⟨0, _⟩ => show r.val = if (1024 : Nat) = 1 then 0 else r.val; rw [if_neg (by decide)]
    | ⟨1, _⟩ => show 0 = if (1 : Nat) = 1 then 0 else s.val; rw [if_pos rfl])

/-- The row of y-norms broadcast along the columns, at (r, s), is its entry s. -/
theorem row_bcast_apply (q : FVec Ideal S1x1024 .f32) (r s : Fin 1024) :
    broadcastTo S1024x1024 q broadcasts_S1x1024_S1024x1024 (ix2 r s) = q (ix2 0 s) :=
  broadcastTo_apply q broadcasts_S1x1024_S1024x1024 (ix2 r s) (ix2 0 s) (fun ax => by
    match ax with
    | ⟨0, _⟩ => show 0 = if (1 : Nat) = 1 then 0 else r.val; rw [if_pos rfl]
    | ⟨1, _⟩ => show s.val = if (1024 : Nat) = 1 then 0 else s.val; rw [if_neg (by decide)])

/-- WHAT THE BODY STORES, as an array: the body's operations with the identity re-shapes dropped and the entry-by-entry
    operations written at an entry. -/
theorem stored_eq (a b : Vec Ideal S1024x512 .bf16) (p : Vec Ideal S1024x1 .f32) (q : Vec Ideal S1x1024 .f32) :
    k0_pay1 (F := Ideal) a b p q = fun i =>
      Ideal.exp (Ideal.ofBits .f32 0xBF000000#32 *
        max ((broadcastTo S1024x1024 p broadcasts_S1024x1_S1024x1024 i + broadcastTo S1024x1024 q broadcasts_S1x1024_S1024x1024 i)
              - Ideal.ofBits .f32 0x40000000#32 * matmul (F := Ideal) (φ₁ := .bf16) (φ₂ := .bf16) dot_S1024x512_S1024x512_S1024x1024_1_1_0_0_n_n none a b (constant S1024x1024 .f32 0x00000000#32) i)
            (Ideal.ofBits .f32 0x00000000#32)) := by
  unfold k0_pay1
  simp only [shapeCast_self]
  rfl

/-- WHAT THE BODY STORES at entry (r, s) of its tile, from its four loaded blocks. -/
theorem stored_apply (a b : Vec Ideal S1024x512 .bf16) (p : Vec Ideal S1024x1 .f32) (q : Vec Ideal S1x1024 .f32)
    (r s : Fin 1024) :
    k0_pay1 (F := Ideal) a b p q (ix2 r s)
      = Ideal.exp (Ideal.ofBits .f32 0xBF000000#32 *
          max ((p (ix2 r 0) + q (ix2 0 s)) - Ideal.ofBits .f32 0x40000000#32 * ∑ k : Fin 512, a (ix2 r k) * b (ix2 s k))
            (Ideal.ofBits .f32 0x00000000#32)) := by
  refine (congrFun (stored_eq a b p q) (ix2 r s)).trans ?_
  show Ideal.exp (Ideal.ofBits .f32 0xBF000000#32 *
        max ((broadcastTo S1024x1024 p broadcasts_S1024x1_S1024x1024 (ix2 r s) + broadcastTo S1024x1024 q broadcasts_S1x1024_S1024x1024 (ix2 r s))
              - Ideal.ofBits .f32 0x40000000#32 * matmul (F := Ideal) (φ₁ := .bf16) (φ₂ := .bf16) dot_S1024x512_S1024x512_S1024x1024_1_1_0_0_n_n none a b (constant S1024x1024 .f32 0x00000000#32) (ix2 r s))
            (Ideal.ofBits .f32 0x00000000#32)) = _
  rw [col_bcast_apply, row_bcast_apply, tile_dot_apply]

end Cert.KernelIdeal.TileGram

end
-- ==== Proof.ScaledInputs.lean ====
/-
  What the kernel's four staged arrays hold when its one region is entered.

  Before the region the host part of the kernel program scales x and y by exp(−½ · logh) feature by feature, sums the
  squares of each scaled row, and hands the region four arrays: the scaled x and the scaled y narrowed to bf16 (a change
  of format, the identity on the ideal values), the x-norms as an 8192 × 1 column, and the y-norms as a 1 × 8192 row (the
  column transposed). These host operations are, operation for operation, the ones the reference program starts with, so
  the four ingredients are NAMED here by the reference's stage functions applied to the kernel's argument arrays:
  `U`, `W` (scaled x, scaled y) and `nU`, `nW` (their rows' squared norms). Nothing of them is opened: each staged array is
  read at an entry as the matching ingredient at the matching entry.
-/
import proofs.«129757_j82712480187158_1_alg».proof.Proof.Gen.KernelIdeal.Frame
import proofs.«129757_j82712480187158_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Scaled

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The scaled x: x(r,k) · exp(−½ · logh(k)). -/
def U (c : Dev nD) : FVec Ideal S8192x512 .f32 :=
  Cert.ReferenceIdeal.Read.val_main_v5 (F := Ideal) (m ((c : Thread nD τ).loc main_arg0)) (m ((c : Thread nD τ).loc main_arg2))
/-- The scaled y: y(s,k) · exp(−½ · logh(k)). -/
def W (c : Dev nD) : FVec Ideal S8192x512 .f32 :=
  Cert.ReferenceIdeal.Read.val_main_v8 (F := Ideal) (m ((c : Thread nD τ).loc main_arg1)) (m ((c : Thread nD τ).loc main_arg2))
/-- The squared norm of each row of the scaled x. -/
def nU (c : Dev nD) : FVec Ideal S8192 .f32 :=
  Cert.ReferenceIdeal.Read.val_main_v10 (F := Ideal) (m ((c : Thread nD τ).loc main_arg0)) (m ((c : Thread nD τ).loc main_arg2))
/-- The squared norm of each row of the scaled y. -/
def nW (c : Dev nD) : FVec Ideal S8192 .f32 :=
  Cert.ReferenceIdeal.Read.val_main_v12 (F := Ideal) (m ((c : Thread nD τ).loc main_arg1)) (m ((c : Thread nD τ).loc main_arg2))

/-- A vector of 8192 numbers laid out as an 8192 × 1 column: entry (r, 0) is the vector's entry r. -/
theorem column_apply (v : FVec Ideal S8192 .f32) (r : Fin 8192) :
    broadcastInDim S8192x1 ![0] bcast_S8192_S8192x1_0 v (ix2 r (0 : Fin 1)) = v (ix1 r) :=
  broadcastInDim_apply _ bcast_S8192_S8192x1_0 v (ix2 r 0) (ix1 r) (fun a => by
    match a with
    | ⟨0, _⟩ => show r.val = if (8192 : Nat) = 1 then 0 else r.val; rw [if_neg (by decide)])

/-- That column transposed to a 1 × 8192 row: entry (0, s) is the vector's entry s. -/
theorem row_apply (v : FVec Ideal S8192 .f32) (s : Fin 8192) :
    transpose S1x8192 [1, 0] (broadcastInDim S8192x1 ![0] bcast_S8192_S8192x1_0 v) transposes_S8192x1_S1x8192_1_0 (ix2 (0 : Fin 1) s)
      = v (ix1 s) :=
  (transpose_ix2_apply (broadcastInDim S8192x1 ![0] bcast_S8192_S8192x1_0 v) transposes_S8192x1_S1x8192_1_0 (0 : Fin 1) s).trans
    (column_apply v s)

/-- The first staged array is the scaled x narrowed to bf16: at the ideal values, the scaled x. -/
theorem staged_x_apply (c : Dev nD) (r : Fin 8192) (k : Fin 512) :
    (V m c main_v16 : FVec Ideal S8192x512 .bf16) (ix2 r k) = U m c (ix2 r k) := by
  have e : (V m c main_v16 : FVec Ideal S8192x512 .bf16)
      = truncf (F := Ideal) (φ := .f32) .bf16 (U m c) bitsLt_bf16_f32 := by
    dsimp only [Gen.V, Gen.hostOps0]; after_results; rfl
  rw [e]; rfl

/-- The second staged array is the scaled y narrowed to bf16: at the ideal values, the scaled y. -/
theorem staged_y_apply (c : Dev nD) (s : Fin 8192) (k : Fin 512) :
    (V m c main_v17 : FVec Ideal S8192x512 .bf16) (ix2 s k) = W m c (ix2 s k) := by
  have e : (V m c main_v17 : FVec Ideal S8192x512 .bf16)
      = truncf (F := Ideal) (φ := .f32) .bf16 (W m c) bitsLt_bf16_f32 := by
    dsimp only [Gen.V, Gen.hostOps0]; after_results; rfl
  rw [e]; rfl

/-- The third staged array is the x-norms as a column: entry (r, 0) is the norm of row r. -/
theorem staged_xnorm_apply (c : Dev nD) (r : Fin 8192) :
    (V m c main_v11 : FVec Ideal S8192x1 .f32) (ix2 r 0) = nU m c (ix1 r) := by
  have e : (V m c main_v11 : FVec Ideal S8192x1 .f32)
      = broadcastInDim S8192x1 ![0] bcast_S8192_S8192x1_0 (nU m c) := by
    dsimp only [Gen.V, Gen.hostOps0]; after_results; rfl
  rw [e]
  exact column_apply (nU m c) r

/-- The fourth staged array is the y-norms' column transposed to a row: entry (0, s) is the norm of row s. -/
theorem staged_ynorm_apply (c : Dev nD) (s : Fin 8192) :
    (V m c main_v15 : FVec Ideal S1x8192 .f32) (ix2 0 s) = nW m c (ix1 s) := by
  have e : (V m c main_v15 : FVec Ideal S1x8192 .f32)
      = transpose S1x8192 [1, 0] (broadcastInDim S8192x1 ![0] bcast_S8192_S8192x1_0 (nW m c)) transposes_S8192x1_S1x8192_1_0 := by
    dsimp only [Gen.V, Gen.hostOps0]; after_results; rfl
  rw [e]
  exact row_apply (nW m c) s

end Cert.KernelIdeal.Scaled

end
-- ==== Proof.KernelGram.lean ====
/-
  The kernel's result array is the kernel matrix `gram` of its scaled inputs and their squared norms.

  The region runs over an 8 × 8 grid; point (bi, bj) is handed rows 1024·bi … 1024·bi + 1023 of the scaled x, rows
  1024·bj … 1024·bj + 1023 of the scaled y, the matching 1024 x-norms (a piece of the column) and 1024 y-norms (a piece of
  the row), and writes the 1024 × 1024 tile at block (bi, bj) of the result. Entry (r, s) of that tile is
      exp(−½ · max((p(r) + q(s)) − 2 · Σ_k a(r,k) · b(s,k), 0))
  of the handed blocks, which are rows R = 1024·bi + r and S = 1024·bj + s of the whole arrays: so it is `gramAt` at (R, S),
  the entry of the result array that tile entry (r, s) lands on. Every entry (R, S) of the 8192 × 8192 array lies in the
  tile at block (R / 1024, S / 1024), every grid point writes its tile back, so after the run the array IS `gram`.
-/
import proofs.«129757_j82712480187158_1_alg».proof.Proof.Gen.KernelIdeal.Value
import proofs.«129757_j82712480187158_1_alg».proof.Proof.GramSpec
import proofs.«129757_j82712480187158_1_alg».proof.Proof.TileGram
import proofs.«129757_j82712480187158_1_alg».proof.Proof.ScaledInputs
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GramValue

open Cert.KernelIdeal Cert.KernelIdeal.Gen Idealize.ShloMosaic.ValueIdx
open scoped BigOperators

/-! ## One tile entry is one entry of the kernel matrix -/

/-- If the four blocks are the rows R (of the scaled x), S (of the scaled y) and the norms of those rows, where they are
    read for tile entry (r, s), then the body's stored value at (r, s) is `gramAt` at (R, S). -/
theorem tile_entry (a b : Vec Ideal S1024x512 .bf16) (p : Vec Ideal S1024x1 .f32) (q : Vec Ideal S1x1024 .f32)
    (U W : FVec Ideal S8192x512 .f32) (nU nW : FVec Ideal S8192 .f32) (r s : Fin 1024) (R S : Fin 8192)
    (ha : ∀ k : Fin 512, a (ix2 r k) = U (ix2 R k)) (hb : ∀ k : Fin 512, b (ix2 s k) = W (ix2 S k))
    (hp : p (ix2 r 0) = nU (ix1 R)) (hq : q (ix2 0 s) = nW (ix1 S)) :
    k0_pay1 (F := Ideal) a b p q (ix2 r s) = ArdGram.gramAt U W nU nW R S := by
  rw [TileGram.stored_apply, hp, hq]
  simp only [ha, hb]
  rfl

/-- The same at a tile index given whole, its coordinates read off it. -/
theorem tile_entry_at (a b : Vec Ideal S1024x512 .bf16) (p : Vec Ideal S1024x1 .f32) (q : Vec Ideal S1x1024 .f32)
    (U W : FVec Ideal S8192x512 .f32) (nU nW : FVec Ideal S8192 .f32) (y : S1024x1024.Idx) (R S : Fin 8192)
    (ha : ∀ k : Fin 512, a (ix2 (⟨(y 0).val, (y 0).isLt⟩ : Fin 1024) k) = U (ix2 R k))
    (hb : ∀ k : Fin 512, b (ix2 (⟨(y 1).val, (y 1).isLt⟩ : Fin 1024) k) = W (ix2 S k))
    (hp : p (ix2 (⟨(y 0).val, (y 0).isLt⟩ : Fin 1024) (0 : Fin 1)) = nU (ix1 R))
    (hq : q (ix2 (0 : Fin 1) (⟨(y 1).val, (y 1).isLt⟩ : Fin 1024)) = nW (ix1 S)) :
    k0_pay1 (F := Ideal) a b p q y = ArdGram.gramAt U W nU nW R S := by
  obtain ⟨r, s, rfl⟩ : ∃ (r s : Fin 1024), y = ix2 r s := ⟨y 0, y 1, eq_ix2 y⟩
  exact tile_entry a b p q U W nU nW r s R S ha hb hp hq

/-! ## Each grid point writes back a tile of the kernel matrix -/

variable (m : (ℓ : Loc nD τ sig) → Buf (Elt Ideal) ℓ) (ρ : Dev nD → PrngReg)

theorem hz : (![0, 0] : Fin 2 → Nat) = fun _ => 0 := funext fun a => by fin_cases a <;> rfl

/-- The kernel matrix of the kernel's own arguments. -/
def K (c : Dev nD) : FVec Ideal S8192x8192 .f32 :=
  ArdGram.gram (Scaled.U m c) (Scaled.W m c) (Scaled.nU m c) (Scaled.nW m c)

/-- The printed block-index maps over the 64 grid points: the scaled x and its norms move with the output's block ROW,
    the scaled y and its norms with the output's block COLUMN, each at block column (or row) 0 on its short axis; the
    output's block indices run over 0 … 7. -/
theorem idx_facts : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the 8 × 8 block grid is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- WHAT POINT `t` WRITES BACK is block `t` of the kernel matrix `K`. -/
theorem flushed_is_tile (c : Dev nD) (t : Fin cfg0.N) :
    (dats m 0 c).flushed 4 t = ((cfg0.win 4).blk t).view.read (Elt Ideal) (K m c) := by
  rw [Cert.KernelIdeal.Value.flushed4]
  unfold out0_4
  rw [View.canon_unit_zero hz]
  simp only [View.ld_unit_zero (S := S1024x512) hz, View.ld_unit_zero (S := S1024x1) hz, View.ld_unit_zero (S := S1x1024) hz]
  obtain ⟨e00, e01, e10, e11, e20, e21, e30, e31, b0, b1⟩ := idx_facts t
  funext j
  -- the array entry this tile entry lands on: (1024·bi + j₀, 1024·bj + j₁)
  have hi0 : ((((cfg0.win 4).blk t).view.emb j) 0).val = win0_4.index t (0 : Fin 2) * 1024 + 1 * (j 0).val := rfl
  have hi1 : ((((cfg0.win 4).blk t).view.emb j) 1).val = win0_4.index t (1 : Fin 2) * 1024 + 1 * (j 1).val := rfl
  show k0_pay1 (F := Ideal) (iblk m c 0 t) (iblk m c 1 t) (iblk m c 2 t) (iblk m c 3 t) j
      = ArdGram.gramAt (Scaled.U m c) (Scaled.W m c) (Scaled.nU m c) (Scaled.nW m c)
          ⟨((((cfg0.win 4).blk t).view.emb j) 0).val, ((((cfg0.win 4).blk t).view.emb j) 0).isLt⟩
          ⟨((((cfg0.win 4).blk t).view.emb j) 1).val, ((((cfg0.win 4).blk t).view.emb j) 1).isLt⟩
  refine tile_entry_at (iblk m c 0 t) (iblk m c 1 t) (iblk m c 2 t) (iblk m c 3 t)
    (Scaled.U m c) (Scaled.W m c) (Scaled.nU m c) (Scaled.nW m c) j
    ⟨((((cfg0.win 4).blk t).view.emb j) 0).val, ((((cfg0.win 4).blk t).view.emb j) 0).isLt⟩
    ⟨((((cfg0.win 4).blk t).view.emb j) 1).val, ((((cfg0.win 4).blk t).view.emb j) 1).isLt⟩
    (fun k => ?_) (fun k => ?_) ?_ ?_
  · -- the block of the scaled x: rows of the output's block row
    show V m c main_v16 (((cfg0.win 0).blk t).view.emb (ix2 (⟨(j 0).val, (j 0).isLt⟩ : Fin 1024) k)) = _
    have he : ((cfg0.win 0).blk t).view.emb (ix2 (⟨(j 0).val, (j 0).isLt⟩ : Fin 1024) k)
        = ix2 (⟨((((cfg0.win 4).blk t).view.emb j) 0).val, ((((cfg0.win 4).blk t).view.emb j) 0).isLt⟩ : Fin 8192) k := by
      funext ax; apply Fin.ext
      match ax with
      | ⟨0, _⟩ => show win0_0.index t (0 : Fin 2) * 1024 + 1 * (j 0).val = _; rw [hi0, e00]
      | ⟨1, _⟩ => show win0_0.index t (1 : Fin 2) * 512 + 1 * k.val = k.val; rw [e01]; omega
    rw [he]; exact Scaled.staged_x_apply m c _ k
  · -- the block of the scaled y: rows of the output's block column
    show V m c main_v17 (((cfg0.win 1).blk t).view.emb (ix2 (⟨(j 1).val, (j 1).isLt⟩ : Fin 1024) k)) = _
    have he : ((cfg0.win 1).blk t).view.emb (ix2 (⟨(j 1).val, (j 1).isLt⟩ : Fin 1024) k)
        = ix2 (⟨((((cfg0.win 4).blk t).view.emb j) 1).val, ((((cfg0.win 4).blk t).view.emb j) 1).isLt⟩ : Fin 8192) k := by
      funext ax; apply Fin.ext
      match ax with
      | ⟨0, _⟩ => show win0_1.index t (0 : Fin 2) * 1024 + 1 * (j 1).val = _; rw [hi1, e10]
      | ⟨1, _⟩ => show win0_1.index t (1 : Fin 2) * 512 + 1 * k.val = k.val; rw [e11]; omega
    rw [he]; exact Scaled.staged_y_apply m c _ k
  · -- the piece of the column of x-norms
    show V m c main_v11 (((cfg0.win 2).blk t).view.emb (ix2 (⟨(j 0).val, (j 0).isLt⟩ : Fin 1024) (0 : Fin 1))) = _
    have he : ((cfg0.win 2).blk t).view.emb (ix2 (⟨(j 0).val, (j 0).isLt⟩ : Fin 1024) (0 : Fin 1))
        = ix2 (⟨((((cfg0.win 4).blk t).view.emb j) 0).val, ((((cfg0.win 4).blk t).view.emb j) 0).isLt⟩ : Fin 8192) (0 : Fin 1) := by
      funext ax; apply Fin.ext
      match ax with
      | ⟨0, _⟩ => show win0_2.index t (0 : Fin 2) * 1024 + 1 * (j 0).val = _; rw [hi0, e20]
      | ⟨1, _⟩ => show win0_2.index t (1 : Fin 2) * 1 + 1 * 0 = 0; rw [e21]
    rw [he]; exact Scaled.staged_xnorm_apply m c _
  · -- the piece of the row of y-norms
    show V m c main_v15 (((cfg0.win 3).blk t).view.emb (ix2 (0 : Fin 1) (⟨(j 1).val, (j 1).isLt⟩ : Fin 1024))) = _
    have he : ((cfg0.win 3).blk t).view.emb (ix2 (0 : Fin 1) (⟨(j 1).val, (j 1).isLt⟩ : Fin 1024))
        = ix2 (0 : Fin 1) (⟨((((cfg0.win 4).blk t).view.emb j) 1).val, ((((cfg0.win 4).blk t).view.emb j) 1).isLt⟩ : Fin 8192) := by
      funext ax; apply Fin.ext
      match ax with
      | ⟨0, _⟩ => show win0_3.index t (0 : Fin 2) * 1 + 1 * 0 = 0; rw [e30]
      | ⟨1, _⟩ => show win0_3.index t (1 : Fin 2) * 1024 + 1 * (j 1).val = _; rw [hi1, e31]
    rw [he]; exact Scaled.staged_ynorm_apply m c _

/-! ## The 64 tiles cover the array -/

/-- An entry of the array is in point `t`'s tile iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v18).slice (win0_4.rect t)).set ↔ _
  rw [View.set_slice_whole, Rect.mem_set_unit]
  exact Iff.rfl

/-- Entry (R, S) lies in the tile at block (R / 1024, S / 1024), and every point writes its tile back. -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- So the result array ends holding the kernel matrix. -/
theorem final_is_gram (c : Dev nD) : (dats m 0 c).arrAt 4 cfg0.N = K m c :=
  (dats m 0 c).arrAt_eq_of_cover 4 (K m c) (fun t _ => flushed_is_tile m c t) tiles_cover

/-- The run, read: the result array at the kernel matrix of the arguments, the arguments unchanged. -/
theorem run : θ_run defs (onTc (τ := τ) (main (F := Ideal))) ⟨m, fun _ => 0, ρ⟩ fun r => ∀ c : Dev nD,
      r.2.mem ((c : Thread nD τ).loc main_v18) = K m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_is_gram m c), (h c).2⟩)
    (Cert.KernelIdeal.Value.run_blocks m ρ)

end Cert.KernelIdeal.GramValue

end
-- ==== Proof.RefGram.lean ====
/-
  The reference program ends at the kernel matrix `gram` of ITS OWN scaled inputs and squared norms.

  The reference scales x and y by exp(−½ · logh) feature by feature (its stages `val_main_v5`, `val_main_v8`), sums the
  squares of each scaled row (`val_main_v10`, `val_main_v12`), lays the x-norms out as a column and the y-norms as a row,
  broadcasts both to the full 8192 × 8192 square and adds them; takes ONE product of the scaled x with the transposed
  scaled y; and finishes entry by entry: minus twice the product, the clamp at 0, the factor −½, the exponential.
  Read at an entry (r, s): the broadcast column is the x-norm of row r, the broadcast row the y-norm of row s, the product
  the sum over the 512 features of (scaled x)(r,k) · (scaled y)(s,k). That is `gramAt` at (r, s), term for term.
-/
import proofs.«129757_j82712480187158_1_alg».proof.Proof.Gen.ReferenceIdeal.Read
import proofs.«129757_j82712480187158_1_alg».proof.Proof.GramSpec

noncomputable section

namespace Cert.ReferenceIdeal.RefGram

open Cert.ReferenceIdeal Cert.ReferenceIdeal.Gen Cert.ReferenceIdeal.Read Idealize.ShloMosaic Idealize.ShloMosaic.ValueIdx
open scoped BigOperators

/-- The reference's result array is `gram` of its scaled inputs and their squared norms. -/
theorem result_is_gram (x0 x1 : (⟨S8192x512, .f32⟩ : BufTy).Contents (Elt Ideal)) (x2 : (⟨S512, .f32⟩ : BufTy).Contents (Elt Ideal)) :
    val_main_v26 (F := Ideal) x0 x1 x2
      = ArdGram.gram (val_main_v5 (F := Ideal) x0 x2) (val_main_v8 (F := Ideal) x1 x2)
          (val_main_v10 (F := Ideal) x0 x2) (val_main_v12 (F := Ideal) x1 x2) := by
  funext i
  -- the column of x-norms broadcast to the square, read at i, is the x-norm of i's row; likewise the row of y-norms
  have ecol : idx_main_v13 (idx_main_v15 i) = ix1 (⟨(i 0).val, (i 0).isLt⟩ : Fin 8192) :=
    funext fun a => Fin.ext (by match a with | ⟨0, _⟩ => rfl)
  have erow : idx_main_v14 (idx_main_v16 i) = ix1 (⟨(i 1).val, (i 1).isLt⟩ : Fin 8192) :=
    funext fun a => Fin.ext (by match a with | ⟨0, _⟩ => rfl)
  -- the product's operands at entry i and feature k
  have el : ∀ k : Fin 512, lidx_main_v18 i k = ix2 (⟨(i 0).val, (i 0).isLt⟩ : Fin 8192) k :=
    fun k => funext fun a => Fin.ext (by match a with | ⟨0, _⟩ => rfl | ⟨1, _⟩ => rfl)
  have er : ∀ k : Fin 512, ridx_main_v18 i k = ix2 (⟨(i 1).val, (i 1).isLt⟩ : Fin 8192) k :=
    fun k => funext fun a => Fin.ext (by match a with | ⟨0, _⟩ => rfl | ⟨1, _⟩ => rfl)
  rw [val_main_v26_apply, val_main_v25_apply, val_main_v24_apply, val_main_cst_4_apply, val_main_v23_apply,
    val_main_v22_apply, val_main_cst_3_apply, val_main_v21_apply, val_main_v20_apply, val_main_v19_apply,
    val_main_cst_2_apply, val_main_v18_apply, val_main_v17_apply, val_main_v15_apply, val_main_v13_apply,
    val_main_v16_apply, val_main_v14_apply]
  simp only [ecol, erow, el, er]
  rfl

end Cert.ReferenceIdeal.RefGram

end
-- ==== Proof.lean ====
/-
  A Gaussian kernel matrix with per-feature length scales, tile by tile, against the same matrix in one piece.

  Inputs: x, y (8192 points in ℝ⁵¹² each) and logh (512 log length scales). With u = x · exp(−½ · logh) and
  v = y · exp(−½ · logh), feature by feature, both programs compute
      K(i, j) = exp(−½ · max((‖uᵢ‖² + ‖vⱼ‖²) − 2 · ⟨uᵢ, vⱼ⟩, 0)) ,
  which is exp(−½ Σ_d (xᵢ_d − yⱼ_d)² / exp(logh_d)) with the square expanded. The kernel program forms u, v and the two
  vectors of squared norms on the host, then computes K in 64 tiles of 1024 × 1024: the tile at block (bi, bj) multiplies
  1024 rows of u with the transpose of 1024 rows of v (all 512 features at once, from a zero accumulator) and finishes
  entry by entry. The reference multiplies all of u with the transpose of all of v in one product and finishes entry by
  entry on the whole 8192 × 8192 square.

  Why they agree on the extended reals, with nothing assumed of the inputs: entry (i, j) of a matrix product depends on
  row i of the left factor and row j of the (transposed) right factor only, so a tile's product entry IS the whole
  product's entry, the same sum over the 512 features term by term; narrowing u and v to bf16 for the tile product is a
  change of format, the identity on ideal values; and the remaining operations are the same operations in the same
  order with the same three constants (2, 0, −½). Nothing is regrouped, distributed or cancelled, so no finiteness is
  used: the precondition is never opened.

  The pieces: `ArdGram.gram` (the matrix as one function of u, v and their squared norms), `RefGram.result_is_gram` (the
  reference ends at it), `TileGram.stored_apply` (what the kernel body stores at a tile entry), `Scaled.staged_*_apply`
  (what the four staged arrays hold), `GramValue.run` (the kernel's array after the run is `gram`). The idealization
  rewrote nothing, so its conjunct is `True`.
-/
import proofs.«129757_j82712480187158_1_alg».proof.Defs
import proofs.«129757_j82712480187158_1_alg».proof.Proof.Gen.Kernel
import proofs.«129757_j82712480187158_1_alg».proof.Proof.Gen.Kernel.Skeleton
import proofs.«129757_j82712480187158_1_alg».proof.Proof.Gen.Kernel.Launch
import proofs.«129757_j82712480187158_1_alg».proof.Proof.Gen.Kernel.Points
import proofs.«129757_j82712480187158_1_alg».proof.Proof.Gen.Kernel.Frame
import proofs.«129757_j82712480187158_1_alg».proof.Proof.Gen.KernelIdeal
import proofs.«129757_j82712480187158_1_alg».proof.Proof.Gen.KernelIdeal.Skeleton
import proofs.«129757_j82712480187158_1_alg».proof.Proof.Gen.KernelIdeal.Launch
import proofs.«129757_j82712480187158_1_alg».proof.Proof.Gen.KernelIdeal.Points
import proofs.«129757_j82712480187158_1_alg».proof.Proof.Gen.KernelIdeal.Frame
import proofs.«129757_j82712480187158_1_alg».proof.Proof.Gen.ReferenceIdeal
import proofs.«129757_j82712480187158_1_alg».proof.Proof.Gen.Pre_finite_inputs
import proofs.«129757_j82712480187158_1_alg».proof.Proof.Gen.KernelIdeal.Value
import proofs.«129757_j82712480187158_1_alg».proof.Proof.Gen.ReferenceIdeal.Run
import proofs.«129757_j82712480187158_1_alg».proof.Proof.Gen.ReferenceIdeal.Read
import proofs.«129757_j82712480187158_1_alg».proof.Proof.KernelGram
import proofs.«129757_j82712480187158_1_alg».proof.Proof.RefGram
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is host operations only: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the kernel matrix of its scaled inputs and their
    squared norms, and so does the reference's: the same function of the same arguments. -/
theorem algebraic : Cert.algebraic_KernelIdeal_ReferenceIdeal := by
  intro m ρ m' ρ' _ hagree
  refine ⟨fun c => Cert.KernelIdeal.GramValue.K m c, Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefGram.result_is_gram,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
